-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x64 : Shape := ⟨2, ![128, 64]⟩
abbrev S64 : Shape := ⟨1, ![64]⟩
abbrev S3200000 : Shape := ⟨1, ![3200000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x128 .f32) (main_arg1 : FVec F S128x64 .f32) (main_arg2 : FVec F S64 .f32) (main_arg3 : IVec S3200000 32) (main_arg4 : IVec S3200000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x128 : Shape := ⟨2, ![100000, 128]⟩
abbrev S128x64 : Shape := ⟨2, ![128, 64]⟩
abbrev S64 : Shape := ⟨1, ![64]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S100000x64 : Shape := ⟨2, ![100000, 64]⟩
abbrev S4000x128 : Shape := ⟨2, ![4000, 128]⟩
abbrev S4000x1 : Shape := ⟨2, ![4000, 1]⟩
abbrev S4000x64 : Shape := ⟨2, ![4000, 64]⟩
abbrev S3200000x64 : Shape := ⟨2, ![3200000, 64]⟩
abbrev S1x64 : Shape := ⟨2, ![1, 64]⟩
abbrev S4000 : Shape := ⟨1, ![4000]⟩

abbrev nBuf : Space → Nat
  | .hbm => 43
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S64, .f32⟩
  | .hbm, ⟨3, _⟩ => ⟨S3200000, .i32⟩
  | .hbm, ⟨4, _⟩ => ⟨S3200000, .i32⟩
  | .hbm, ⟨5, _⟩ => ⟨S_, .f32⟩
  | .hbm, ⟨6, _⟩ => ⟨S3200000, .f32⟩
  | .hbm, ⟨7, _⟩ => ⟨S_, .f32⟩
  | .hbm, ⟨8, _⟩ => ⟨S100000, .f32⟩
  | .hbm, ⟨9, _⟩ => ⟨S3200000x1, .i32⟩
  | .hbm, ⟨10, _⟩ => ⟨S100000, .f32⟩
  | .hbm, ⟨11, _⟩ => ⟨S_, .f32⟩
  | .hbm, ⟨12, _⟩ => ⟨S100000, .f32⟩
  | .hbm, ⟨13, _⟩ => ⟨S3200000x1, .i32⟩
  | .hbm, ⟨14, _⟩ => ⟨S100000, .f32⟩
  | .hbm, ⟨15, _⟩ => ⟨S_, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S100000x1, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S100000x64, .f32⟩
  | .hbm, ⟨28, _⟩ => ⟨S_, .i32⟩
  | .hbm, ⟨29, _⟩ => ⟨S3200000, .i32⟩
  | .hbm, ⟨30, _⟩ => ⟨S3200000, .i1⟩
  | .hbm, ⟨31, _⟩ => ⟨S_, .i32⟩
  | .hbm, ⟨32, _⟩ => ⟨S3200000, .i32⟩
  | .hbm, ⟨33, _⟩ => ⟨S3200000, .i32⟩
  | .hbm, ⟨34, _⟩ => ⟨S3200000, .i32⟩
  | .hbm, ⟨35, _⟩ => ⟨S3200000x1, .i32⟩
  | .hbm, ⟨36, _⟩ => ⟨S3200000x64, .f32⟩
  | .hbm, ⟨37, _⟩ => ⟨S_, .f32⟩
  | .hbm, ⟨38, _⟩ => ⟨S100000x64, .f32⟩
  | .hbm, ⟨39, _⟩ => ⟨S3200000x1, .i32⟩
  | .hbm, ⟨40, _⟩ => ⟨S100000x64, .f32⟩
  | .hbm, ⟨41, _⟩ => ⟨S100000x1, .f32⟩
  | .hbm, ⟨42, _⟩ => ⟨S100000, .f32⟩
  | .local _ .vmem, ⟨0, _⟩ => ⟨S4000x128, .f32⟩
  | .local _ .vmem, ⟨1, _⟩ => ⟨S4000x128, .f32⟩
  | .local _ .vmem, ⟨2, _⟩ => ⟨S4000x1, .f32⟩
  | .local _ .vmem, ⟨3, _⟩ => ⟨S4000x1, .f32⟩
  | .local _ .vmem, ⟨4, _⟩ => ⟨S128x64, .f32⟩
  | .local _ .vmem, ⟨5, _⟩ => ⟨S4000x64, .f32⟩
  | .local _ .vmem, ⟨6, _⟩ => ⟨S4000x64, .f32⟩
  | .local _ .vmem, ⟨7, _⟩ => ⟨S4000x64, .f32⟩
  | .local _ .vmem, ⟨8, _⟩ => ⟨S4000x64, .f32⟩
  | .local _ .vmem, ⟨9, _⟩ => ⟨S4000x1, .f32⟩
  | .local _ .vmem, ⟨10, _⟩ => ⟨S4000x1, .f32⟩
  | .local _ .vmem, ⟨11, _⟩ => ⟨S64, .f32⟩
  | .local _ .vmem, ⟨12, _⟩ => ⟨S4000x1, .f32⟩
  | .local _ .vmem, ⟨13, _⟩ => ⟨S4000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_call0_v0 : Ref sig .tc := ⟨.hbm, 16, rfl⟩
abbrev main_call0_v1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  shapeCasts_S100000_S100000x1 : S100000.ShapeCasts S100000x1
  inb_S4000x128_S4000x128_0_0 : ∀ a, (![0, 0] : Fin 2 → Nat) a + S4000x128.size a ≤ S4000x128.size a
  h_S4000x128 : 0 < S4000x128.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S4000x64_S4000x64_0_0 : ∀ a, (![0, 0] : Fin 2 → Nat) a + S4000x64.size a ≤ S4000x64.size a
  h_S4000x64 : 0 < S4000x64.numel
  bcast_S_S100000x64 : S_.BroadcastsInDim S100000x64 (![] : Fin 0 → Fin S100000x64.rank)
  shapeCasts_S4000x64_S4000x64 : S4000x64.ShapeCasts S4000x64
  broadcasts_S4000x1_S4000x64 : S4000x1.Broadcasts S4000x64
  inb_S64_S64_0 : ∀ a, (![0] : Fin 1 → Nat) a + S64.size a ≤ S64.size a
  h_S64 : 0 < S64.numel
  shapeCasts_S64_S1x64 : S64.ShapeCasts S1x64
  broadcasts_S1x64_S4000x64 : S1x64.Broadcasts S4000x64
  reduces_S4000x64_S4000 : S4000x64.Reduces [1] S4000
  shapeCasts_S4000_S4000x1 : S4000.ShapeCasts S4000x1
  shapeCasts_S100000x1_S100000 : S100000x1.ShapeCasts S100000
  scatter_S100000_S3200000x1_S3200000_n_0_0_1_wf : ScatterDims.WF S100000 S3200000x1 S3200000 [] [0] [0] 1
  dot_S4000x128_S128x64_S4000x64_1_0_0_1_n_n_wf : DotDims.WF S4000x128 S128x64 S4000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S100000x1.size a
  hwx0_1 : ∀ i : grid0.Coords, EltTy.bits .f32 = 32 ∨ (Rect.block (s := S100000x1) S4000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x64.size a ≤ S100000x64.size a
  hwx0_3 : ∀ i : grid0.Coords, EltTy.bits .f32 = 32 ∨ (Rect.block (s := S100000x64) S4000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x1.size a ≤ S100000x1.size a
  hwx1_3 : ∀ i : grid1.Coords, EltTy.bits .f32 = 32 ∨ (Rect.block (s := S100000x1) S4000x1.size (cc1_transform_3 i) (hinb1_3 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S4000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v23) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S4000x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x64 : Shape := ⟨2, ![128, 64]⟩
abbrev S64 : Shape := ⟨1, ![64]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S100000x64 : Shape := ⟨2, ![100000, 64]⟩
abbrev S3200000x64 : Shape := ⟨2, ![3200000, 64]⟩
abbrev S1x64 : Shape := ⟨2, ![1, 64]⟩

abbrev nBuf : Space → Nat
  | .hbm => 53
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S64, .f32⟩
  | .hbm, ⟨3, _⟩ => ⟨S3200000, .i32⟩
  | .hbm, ⟨4, _⟩ => ⟨S3200000, .i32⟩
  | .hbm, ⟨5, _⟩ => ⟨S_, .f32⟩
  | .hbm, ⟨6, _⟩ => ⟨S3200000, .f32⟩
  | .hbm, ⟨7, _⟩ => ⟨S_, .f32⟩
  | .hbm, ⟨8, _⟩ => ⟨S100000, .f32⟩
  | .hbm, ⟨9, _⟩ => ⟨S3200000x1, .i32⟩
  | .hbm, ⟨10, _⟩ => ⟨S100000, .f32⟩
  | .hbm, ⟨11, _⟩ => ⟨S_, .f32⟩
  | .hbm, ⟨12, _⟩ => ⟨S100000, .f32⟩
  | .hbm, ⟨13, _⟩ => ⟨S3200000x1, .i32⟩
  | .hbm, ⟨14, _⟩ => ⟨S100000, .f32⟩
  | .hbm, ⟨15, _⟩ => ⟨S_, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S100000x128, .f32⟩
  | .hbm, ⟨27, _⟩ => ⟨S100000x128, .f32⟩
  | .hbm, ⟨28, _⟩ => ⟨S100000x64, .f32⟩
  | .hbm, ⟨29, _⟩ => ⟨S_, .i32⟩
  | .hbm, ⟨30, _⟩ => ⟨S3200000, .i32⟩
  | .hbm, ⟨31, _⟩ => ⟨S3200000, .i1⟩
  | .hbm, ⟨32, _⟩ => ⟨S_, .i32⟩
  | .hbm, ⟨33, _⟩ => ⟨S3200000, .i32⟩
  | .hbm, ⟨34, _⟩ => ⟨S3200000, .i32⟩
  | .hbm, ⟨35, _⟩ => ⟨S3200000, .i32⟩
  | .hbm, ⟨36, _⟩ => ⟨S3200000x1, .i32⟩
  | .hbm, ⟨37, _⟩ => ⟨S3200000x64, .f32⟩
  | .hbm, ⟨38, _⟩ => ⟨S_, .f32⟩
  | .hbm, ⟨39, _⟩ => ⟨S100000x64, .f32⟩
  | .hbm, ⟨40, _⟩ => ⟨S3200000x1, .i32⟩
  | .hbm, ⟨41, _⟩ => ⟨S100000x64, .f32⟩
  | .hbm, ⟨42, _⟩ => ⟨S100000x1, .f32⟩
  | .hbm, ⟨43, _⟩ => ⟨S100000x64, .f32⟩
  | .hbm, ⟨44, _⟩ => ⟨S100000x64, .f32⟩
  | .hbm, ⟨45, _⟩ => ⟨S1x64, .f32⟩
  | .hbm, ⟨46, _⟩ => ⟨S100000x64, .f32⟩
  | .hbm, ⟨47, _⟩ => ⟨S100000x64, .f32⟩
  | .hbm, ⟨48, _⟩ => ⟨S_, .f32⟩
  | .hbm, ⟨49, _⟩ => ⟨S100000, .f32⟩
  | .hbm, ⟨50, _⟩ => ⟨S_, .f32⟩
  | .hbm, ⟨51, _⟩ => ⟨S100000, .f32⟩
  | .hbm, ⟨52, _⟩ => ⟨S100000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_call0_v0 : Ref sig .tc := ⟨.hbm, 16, rfl⟩
abbrev main_call0_v1 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_call1_v0 : Ref sig .tc := ⟨.hbm, 21, rfl⟩
abbrev main_call1_v1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_6 : Ref sig .tc := ⟨.hbm, 48, rfl⟩
abbrev main_v31 : Ref sig .tc := ⟨.hbm, 49, rfl⟩
abbrev main_cst_7 : Ref sig .tc := ⟨.hbm, 50, rfl⟩
abbrev main_v32 : Ref sig .tc := ⟨.hbm, 51, rfl⟩
abbrev main_v33 : Ref sig .tc := ⟨.hbm, 52, rfl⟩

abbrev nD : Nat := 1
abbrev τ : Topo := Topo.v7x

variable {F : FTy → Type} [FloatOps F]

class Facts₀ : Prop where
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  scatter_S100000_S3200000x1_S3200000_n_0_0_1_wf : ScatterDims.WF S100000 S3200000x1 S3200000 [] [0] [0] 1
  dot_S100000x128_S128x64_S100000x64_1_0_0_1_n_n_wf : DotDims.WF S100000x128 S128x64 S100000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf

class Facts : Prop extends Facts₀ where

variable [Facts]
-- ==== Proof.Tile.lean ====
/-
  The two kernel bodies, read at one index of the block they store, over the extended reals.

  Region 0 (one 4000-row tile): every row of the feature tile is scaled by that row's entry of the
  one-column norm tile, and the scaled tile is multiplied by the whole weight matrix; the format
  changes in between are the identity, and a product accumulated into the zero tile is the plain
  sum over the contraction index. So the entry at row `p`, column `q` is
  `∑ k, (x p k * n p 0) * w k q`.

  Region 1 (one 4000-row tile): every row of the aggregated tile is scaled by that row's norm, the
  bias row is added, the 64 lanes are summed and the sum is divided by the constant 64. So the one
  entry of row `p` is `(∑ j, (a p j * n p 0 + b j)) / 64`.
-/
import proofs.«114373_j90400471646753_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx

/-! ## Layout steps of the bodies at an index -/

/-- A one-column tile broadcast along 128 lanes reads, at `(p, k)`, the column's entry of row `p`. -/
theorem column_along_128 (x : FVec Ideal S4000x1 .f32) (p : Fin 4000) (k : Fin 128) :
    broadcastTo S4000x128 x broadcasts_S4000x1_S4000x128 (ix2 p k) = x (ix2 p 0) :=
  broadcastTo_apply x broadcasts_S4000x1_S4000x128 (ix2 p k) (ix2 p 0) (fun a => match a with
    | ⟨0, _⟩ => by show p.val = if (4000 : Nat) = 1 then 0 else p.val; rw [if_neg (by decide)]
    | ⟨1, _⟩ => by show 0 = if (1 : Nat) = 1 then 0 else k.val; rw [if_pos rfl])

/-- The same along 64 lanes. -/
theorem column_along_64 (x : FVec Ideal S4000x1 .f32) (p : Fin 4000) (j : Fin 64) :
    broadcastTo S4000x64 x broadcasts_S4000x1_S4000x64 (ix2 p j) = x (ix2 p 0) :=
  broadcastTo_apply x broadcasts_S4000x1_S4000x64 (ix2 p j) (ix2 p 0) (fun a => match a with
    | ⟨0, _⟩ => by show p.val = if (4000 : Nat) = 1 then 0 else p.val; rw [if_neg (by decide)]
    | ⟨1, _⟩ => by show 0 = if (1 : Nat) = 1 then 0 else j.val; rw [if_pos rfl])

/-- A 64-vector laid out as one row and broadcast down 4000 rows reads, at `(p, j)`, its entry `j`. -/
theorem row_down_4000 (b : FVec Ideal S64 .f32) (p : Fin 4000) (j : Fin 64) :
    broadcastTo S4000x64 (shapeCast S1x64 b shapeCasts_S64_S1x64) broadcasts_S1x64_S4000x64 (ix2 p j) = b (ix1 j) := by
  refine (broadcastTo_apply (shapeCast S1x64 b shapeCasts_S64_S1x64) broadcasts_S1x64_S4000x64 (ix2 p j) (ix2 (0 : Fin 1) j) (fun a => match a with
    | ⟨0, _⟩ => by show 0 = if (1 : Nat) = 1 then 0 else p.val; rw [if_pos rfl]
    | ⟨1, _⟩ => by show j.val = if (64 : Nat) = 1 then 0 else j.val; rw [if_neg (by decide)])).trans ?_
  exact shapeCast_apply b shapeCasts_S64_S1x64 (ix2 (0 : Fin 1) j) (ix1 j) (by
    rw [Shape.rowMajor_val_one, Shape.rowMajor_val_two]; show j.val = 0 * 64 + j.val; omega)

/-- A 4000-vector laid out as one column reads, at `(p, 0)`, its entry `p`. -/
theorem as_column (v : FVec Ideal S4000 .f32) (p : Fin 4000) :
    shapeCast S4000x1 v shapeCasts_S4000_S4000x1 (ix2 p (0 : Fin 1)) = v (ix1 p) :=
  shapeCast_apply v shapeCasts_S4000_S4000x1 (ix2 p (0 : Fin 1)) (ix1 p) (by
    rw [Shape.rowMajor_val_one, Shape.rowMajor_val_two]; show p.val = p.val * 1 + 0; omega)

/-! ## Region 0: the scaled tile times the weight matrix -/

theorem lhs_row (i : S4000x64.Idx) (q : dot_S4000x128_S128x64_S4000x64_1_0_0_1_n_n.contr.Idx) :
    (dot_S4000x128_S128x64_S4000x64_1_0_0_1_n_n.lhsIdx i q 0).val = (i 0).val := by
  unfold DotDims.lhsIdx
  rw [dif_neg (show ¬(0 : Fin S4000x128.rank) ∈ dot_S4000x128_S128x64_S4000x64_1_0_0_1_n_n.lhsBatch by decide), dif_pos (show (0 : Fin S4000x128.rank) ∈ dot_S4000x128_S128x64_S4000x64_1_0_0_1_n_n.lhsNonContracting by decide)]
  rfl
theorem lhs_contracted (i : S4000x64.Idx) (q : dot_S4000x128_S128x64_S4000x64_1_0_0_1_n_n.contr.Idx) :
    (dot_S4000x128_S128x64_S4000x64_1_0_0_1_n_n.lhsIdx i q 1).val = (q ⟨0, by decide⟩).val :=
  dot_S4000x128_S128x64_S4000x64_1_0_0_1_n_n.lhsIdx_val_of_single rfl i q
theorem rhs_contracted (i : S4000x64.Idx) (q : dot_S4000x128_S128x64_S4000x64_1_0_0_1_n_n.contr.Idx) :
    (dot_S4000x128_S128x64_S4000x64_1_0_0_1_n_n.rhsIdx i q 0).val = (q ⟨0, by decide⟩).val :=
  dot_S4000x128_S128x64_S4000x64_1_0_0_1_n_n.rhsIdx_val_of_single rfl i q
theorem rhs_column (i : S4000x64.Idx) (q : dot_S4000x128_S128x64_S4000x64_1_0_0_1_n_n.contr.Idx) :
    (dot_S4000x128_S128x64_S4000x64_1_0_0_1_n_n.rhsIdx i q 1).val = (i 1).val := by
  unfold DotDims.rhsIdx
  rw [dif_neg (show ¬(1 : Fin S128x64.rank) ∈ dot_S4000x128_S128x64_S4000x64_1_0_0_1_n_n.rhsBatch by decide), dif_pos (show (1 : Fin S128x64.rank) ∈ dot_S4000x128_S128x64_S4000x64_1_0_0_1_n_n.rhsNonContracting by decide)]
  rfl

/-- Region 0's stored tile at row `p`, column `q`. -/
theorem scaled_times_weights (x : FVec Ideal S4000x128 .f32) (n : FVec Ideal S4000x1 .f32) (w : FVec Ideal S128x64 .f32)
    (p : Fin 4000) (q : Fin 64) :
    k0_pay1 (F := Ideal) x n w (ix2 p q) = ∑ k : Fin 128, (x (ix2 p k) * n (ix2 p 0)) * w (ix2 k q) := by
  unfold k0_pay1
  simp only [matmul]
  rw [Ideal.matmul_constant_zero_apply, ← Equiv.sum_comp (ValueIdx.contrEquiv1 dot_S4000x128_S128x64_S4000x64_1_0_0_1_n_n 128 rfl rfl).symm]
  refine Finset.sum_congr rfl fun k _ => ?_
  have hk := ValueIdx.contrEquiv1_symm_val dot_S4000x128_S128x64_S4000x64_1_0_0_1_n_n 128 rfl rfl k
  have el : dot_S4000x128_S128x64_S4000x64_1_0_0_1_n_n.lhsIdx (ix2 p q) ((ValueIdx.contrEquiv1 dot_S4000x128_S128x64_S4000x64_1_0_0_1_n_n 128 rfl rfl).symm k) = ix2 p k := funext fun a => Fin.ext (by
    match a with
    | ⟨0, _⟩ => exact lhs_row _ _
    | ⟨1, _⟩ => exact (lhs_contracted _ _).trans hk)
  have er : dot_S4000x128_S128x64_S4000x64_1_0_0_1_n_n.rhsIdx (ix2 p q) ((ValueIdx.contrEquiv1 dot_S4000x128_S128x64_S4000x64_1_0_0_1_n_n 128 rfl rfl).symm k) = ix2 k q := funext fun a => Fin.ext (by
    match a with
    | ⟨0, _⟩ => exact (rhs_contracted _ _).trans hk
    | ⟨1, _⟩ => exact rhs_column _ _)
  rw [el, er]
  show x (ix2 p k) * broadcastTo S4000x128 (shapeCast S4000x1 n shapeCasts_S4000x1_S4000x1) broadcasts_S4000x1_S4000x128 (ix2 p k) * w (ix2 k q) = _
  rw [shapeCast_self, column_along_128]

/-! ## Region 1: scale, add the bias, average the lanes -/

/-- The lane sum of a tile at row `p`. -/
theorem lane_sum (v : FVec Ideal S4000x64 .f32) (hacc : (0x00000000#32 : BitVec 32) = 0x00000000#32) (p : Fin 4000) :
    multiReduction .add [1] S4000 v 0x00000000#32 reduces_S4000x64_S4000 (.inl rfl) hacc (ix1 p) = ∑ j : Fin 64, v (ix2 p j) := by
  refine (Ideal.multiReduction_add_single v 0x00000000#32 reduces_S4000x64_S4000 (.inl rfl) hacc (ix1 p)).trans ?_
  refine Finset.sum_congr rfl fun j _ => ?_
  exact congrArg v (funext fun a => Fin.ext (by match a with | ⟨0, _⟩ => rfl | ⟨1, _⟩ => rfl))

/-- Region 1's stored one-column tile at row `p`. -/
theorem scaled_biased_mean (a : FVec Ideal S4000x64 .f32) (n : FVec Ideal S4000x1 .f32) (b : FVec Ideal S64 .f32) (p : Fin 4000) :
    k1_pay1 (F := Ideal) a n b (ix2 p (0 : Fin 1))
      = Ideal.div (∑ j : Fin 64, (a (ix2 p j) * n (ix2 p 0) + b (ix1 j))) (Ideal.ofBits .f32 0x42800000#32) := by
  unfold k1_pay1
  show Ideal.div (shapeCast S4000x1 (multiReduction .add [1] S4000 (addf (mulf (shapeCast S4000x64 a shapeCasts_S4000x64_S4000x64)
      (broadcastTo S4000x64 (shapeCast S4000x1 n shapeCasts_S4000x1_S4000x1) broadcasts_S4000x1_S4000x64))
      (broadcastTo S4000x64 (shapeCast S1x64 b shapeCasts_S64_S1x64) broadcasts_S1x64_S4000x64)) 0x00000000#32 reduces_S4000x64_S4000 (.inl rfl) rfl)
      shapeCasts_S4000_S4000x1 (ix2 p (0 : Fin 1))) (Ideal.ofBits .f32 0x42800000#32) = _
  rw [as_column, lane_sum]
  refine congrArg (Ideal.div · _) (Finset.sum_congr rfl fun j _ => ?_)
  show shapeCast S4000x64 a shapeCasts_S4000x64_S4000x64 (ix2 p j)
      * broadcastTo S4000x64 (shapeCast S4000x1 n shapeCasts_S4000x1_S4000x1) broadcasts_S4000x1_S4000x64 (ix2 p j)
      + broadcastTo S4000x64 (shapeCast S1x64 b shapeCasts_S64_S1x64) broadcasts_S1x64_S4000x64 (ix2 p j) = _
  rw [shapeCast_self, shapeCast_self, column_along_64, row_down_4000]

end Cert.KernelIdeal.Tile

end
-- ==== Proof.Whole.lean ====
/-
  The two regions as functions of whole arrays, and the fact that one 4000-row tile of each body's
  output is the corresponding block of that function.

  `scaledProduct x n w` is the [100000, 64] array whose entry (r, q) is `∑ k, (x r k * n r 0) * w k q`:
  the features, each row scaled by its norm, times the weights.
  `pooledRows a n b` is the [100000, 1] array whose entry (r, 0) is `(∑ j, (a r j * n r 0 + b j)) / 64`:
  the aggregated rows, each scaled by its norm, plus the bias, averaged over the 64 features.

  A tile that starts at row `T * 4000` reads rows `T * 4000 + p` of the row-tiled operands and the
  whole of the untiled ones, so the body's entry at row `p` is the function's entry at row
  `T * 4000 + p`: the sums on both sides have the same terms.
-/
import proofs.«114373_j90400471646753_1_alg».proof.Proof.Tile

noncomputable section

namespace Cert.KernelIdeal.Whole

open Cert.KernelIdeal Cert.KernelIdeal.Gen Idealize.ShloMosaic Idealize.ShloMosaic.ValueIdx

/-- The features, each row scaled by its norm, times the weights: entry (r, q). -/
def scaledProduct (x : FVec Ideal S100000x128 .f32) (n : FVec Ideal S100000x1 .f32) (w : FVec Ideal S128x64 .f32) :
    FVec Ideal S100000x64 .f32 :=
  fun i => ∑ k : Fin 128, (x (ix2 (⟨(i 0).val, (i 0).isLt⟩ : Fin 100000) k) * n (ix2 (⟨(i 0).val, (i 0).isLt⟩ : Fin 100000) (0 : Fin 1)))
    * w (ix2 k (⟨(i 1).val, (i 1).isLt⟩ : Fin 64))

/-- The aggregated rows, each scaled by its norm, plus the bias, averaged over the 64 features: entry (r, 0). -/
def pooledRows (a : FVec Ideal S100000x64 .f32) (n : FVec Ideal S100000x1 .f32) (b : FVec Ideal S64 .f32) :
    FVec Ideal S100000x1 .f32 :=
  fun i => Ideal.div (∑ j : Fin 64, (a (ix2 (⟨(i 0).val, (i 0).isLt⟩ : Fin 100000) j) * n (ix2 (⟨(i 0).val, (i 0).isLt⟩ : Fin 100000) (0 : Fin 1))
    + b (ix1 j))) (Ideal.ofBits .f32 0x42800000#32)

/-- Region 0's tile starting at row `T * 4000` is that block of `scaledProduct`. -/
theorem tile_scaledProduct (x : FVec Ideal S100000x128 .f32) (n : FVec Ideal S100000x1 .f32) (w : FVec Ideal S128x64 .f32)
    (xb : FVec Ideal S4000x128 .f32) (nb : FVec Ideal S4000x1 .f32) (wb : FVec Ideal S128x64 .f32) (T : Nat)
    (hx : ∀ (y : S4000x128.Idx) (z : S100000x128.Idx), (z 0).val = T * 4000 + (y 0).val → (z 1).val = (y 1).val → xb y = x z)
    (hn : ∀ (y : S4000x1.Idx) (z : S100000x1.Idx), (z 0).val = T * 4000 + (y 0).val → nb y = n z)
    (hw : ∀ y : S128x64.Idx, wb y = w y)
    (j : S4000x64.Idx) (i : S100000x64.Idx) (h0 : (i 0).val = T * 4000 + (j 0).val) (h1 : (i 1).val = (j 1).val) :
    k0_pay1 (F := Ideal) xb nb wb j = scaledProduct x n w i := by
  obtain ⟨p, q, rfl⟩ : ∃ (p : Fin 4000) (q : Fin 64), j = ix2 p q := ⟨j 0, j 1, eq_ix2 j⟩
  rw [Tile.scaled_times_weights]
  unfold scaledProduct
  refine Finset.sum_congr rfl fun k _ => ?_
  rw [hx (ix2 p k) (ix2 (⟨(i 0).val, (i 0).isLt⟩ : Fin 100000) k) h0 rfl,
    hn (ix2 p (0 : Fin 1)) (ix2 (⟨(i 0).val, (i 0).isLt⟩ : Fin 100000) (0 : Fin 1)) h0, hw (ix2 k q)]
  refine congrArg (_ * w ·) (funext fun a => Fin.ext ?_)
  match a with
  | ⟨0, _⟩ => rfl
  | ⟨1, _⟩ => exact h1.symm

/-- Region 1's tile starting at row `T * 4000` is that block of `pooledRows`. -/
theorem tile_pooledRows (a : FVec Ideal S100000x64 .f32) (n : FVec Ideal S100000x1 .f32) (b : FVec Ideal S64 .f32)
    (ab : FVec Ideal S4000x64 .f32) (nb : FVec Ideal S4000x1 .f32) (bb : FVec Ideal S64 .f32) (T : Nat)
    (ha : ∀ (y : S4000x64.Idx) (z : S100000x64.Idx), (z 0).val = T * 4000 + (y 0).val → (z 1).val = (y 1).val → ab y = a z)
    (hn : ∀ (y : S4000x1.Idx) (z : S100000x1.Idx), (z 0).val = T * 4000 + (y 0).val → nb y = n z)
    (hb : ∀ y : S64.Idx, bb y = b y)
    (j : S4000x1.Idx) (i : S100000x1.Idx) (h0 : (i 0).val = T * 4000 + (j 0).val) :
    k1_pay1 (F := Ideal) ab nb bb j = pooledRows a n b i := by
  obtain ⟨p, z, rfl⟩ : ∃ (p : Fin 4000) (z : Fin 1), j = ix2 p z := ⟨j 0, j 1, eq_ix2 j⟩
  obtain rfl : z = 0 := Subsingleton.elim _ _
  rw [Tile.scaled_biased_mean]
  unfold pooledRows
  refine congrArg (Ideal.div · _) (Finset.sum_congr rfl fun k _ => ?_)
  rw [ha (ix2 p k) (ix2 (⟨(i 0).val, (i 0).isLt⟩ : Fin 100000) k) h0 rfl,
    hn (ix2 p (0 : Fin 1)) (ix2 (⟨(i 0).val, (i 0).isLt⟩ : Fin 100000) (0 : Fin 1)) h0, hb (ix1 k)]

end Cert.KernelIdeal.Whole

end
-- ==== Proof.Region0.lean ====
/-
  Region 0 (the scaled features times the weights) from tiles to the whole array.

  The grid has 25 points; point `t` fetches rows `4000 t … 4000 t + 3999` of the features and of the
  one-column norm, the whole weight matrix, and writes back rows `4000 t …` of the [100000, 64] result.
  So what point `t` writes back is block `t` of `scaledProduct` of the arrays as the region finds
  them; row `r` lies in the block of point `r / 4000`, the blocks cover the array, and the array
  after the region is `scaledProduct` of those arrays.
-/
import proofs.«114373_j90400471646753_1_alg».proof.Proof.Gen.KernelIdeal.Frame
import proofs.«114373_j90400471646753_1_alg».proof.Proof.Whole

set_option maxRecDepth 16384

noncomputable section

namespace Cert.KernelIdeal.Region0

open Cert.KernelIdeal Cert.KernelIdeal.Gen Idealize.ShloMosaic Idealize.ShloMosaic.TcCoe Idealize.ShloMosaic.ValueIdx Idealize.SL.Sem
open Idealize.ShloMosaic.Pipeline (Dat)

/- the buffers' contents when the region is entered -/
variable (V : (c : Dev nD) → (b : Ref sig .tc) → Buf (Elt Ideal) ((c : Thread nD τ).loc b))

theorem origin2 : (![0, 0] : Fin 2 → Nat) = fun _ => 0 := funext fun a => by fin_cases a <;> rfl
theorem origin1 : (![0] : Fin 1 → Nat) = fun _ => 0 := funext fun a => by fin_cases a; rfl

/-- The windows' block indices at every grid point: the row-tiled ones move with the point, the untiled one stays. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Point `t`'s block of the row-tiled first operand holds rows `4000 t + p` of its array. -/
theorem rows_block (c : Dev nD) (t : Fin cfg0.N) (y : S4000x128.Idx) (z : S100000x128.Idx)
    (h0 : (z 0).val = t.val * 4000 + (y 0).val) (h1 : (z 1).val = (y 1).val) : iblk0 V c 0 t y = V c main_arg0 z := by
  obtain ⟨e00, e01, e10, e11, e20, e21, e30, e31⟩ := block_indices t
  show V c main_arg0 (((cfg0.win 0).blk t).view.emb y) = V c main_arg0 z
  refine congrArg (V c main_arg0) (funext fun a => Fin.ext ?_)
  match a with
  | ⟨0, _⟩ => show win0_0.index t (0 : Fin 2) * 4000 + 1 * (y 0).val = (z 0).val; omega
  | ⟨1, _⟩ => show win0_0.index t (1 : Fin 2) * 128 + 1 * (y 1).val = (z 1).val; omega

/-- Point `t`'s block of the one-column norm holds rows `4000 t + p` of its array. -/
theorem norm_block (c : Dev nD) (t : Fin cfg0.N) (y : S4000x1.Idx) (z : S100000x1.Idx)
    (h0 : (z 0).val = t.val * 4000 + (y 0).val) : iblk0 V c 1 t y = V c main_v9 z := by
  obtain ⟨e00, e01, e10, e11, e20, e21, e30, e31⟩ := block_indices t
  show V c main_v9 (((cfg0.win 1).blk t).view.emb y) = V c main_v9 z
  refine congrArg (V c main_v9) (funext fun a => Fin.ext ?_)
  have hy : (y 1).val < 1 := (y 1).isLt
  have hz : (z 1).val < 1 := (z 1).isLt
  match a with
  | ⟨0, _⟩ => show win0_1.index t (0 : Fin 2) * 4000 + 1 * (y 0).val = (z 0).val; omega
  | ⟨1, _⟩ => show win0_1.index t (1 : Fin 2) * 1 + 1 * (y 1).val = (z 1).val; omega

/-- The untiled weight matrix: every point reads the whole array. -/
theorem untiled_block (c : Dev nD) (t : Fin cfg0.N) (y : S128x64.Idx) : iblk0 V c 2 t y = V c main_arg1 y := by
  obtain ⟨e00, e01, e10, e11, e20, e21, e30, e31⟩ := block_indices t
  show V c main_arg1 (((cfg0.win 2).blk t).view.emb y) = V c main_arg1 y
  refine congrArg (V c main_arg1) (funext fun a => Fin.ext ?_)
  match a with
  | ⟨0, _⟩ => show win0_2.index t (0 : Fin 2) * 128 + 1 * (y 0).val = (y 0).val; omega
  | ⟨1, _⟩ => show win0_2.index t (1 : Fin 2) * 64 + 1 * (y 1).val = (y 1).val; omega

/-- What point `t` writes back is block `t` of the whole-array function of the arrays as the region finds them. -/
theorem flushed_block (c : Dev nD) (t : Fin cfg0.N) :
    (dat0 V c).flushed 3 t = ((cfg0.win 3).blk t).view.read (Elt Ideal)
      (Whole.scaledProduct (V c main_arg0) (V c main_v9) (V c main_arg1)) := by
  show (cfg0.win 3).cut (grid0.coords t) ((dat0 V c).after 3 t) = _
  rw [after0_3]
  unfold out0_3
  rw [View.canon_unit_zero origin2]
  simp only [View.ld_unit_zero (S := S4000x128) origin2, View.ld_unit_zero (S := S4000x1) origin2, View.ld_unit_zero (S := S128x64) origin2]
  obtain ⟨e00, e01, e10, e11, e20, e21, e30, e31⟩ := block_indices t
  funext j
  show k0_pay1 (F := Ideal) (iblk0 V c 0 t) (iblk0 V c 1 t) (iblk0 V c 2 t) j
    = Whole.scaledProduct (V c main_arg0) (V c main_v9) (V c main_arg1) (((cfg0.win 3).blk t).view.emb j)
  exact Whole.tile_scaledProduct (V c main_arg0) (V c main_v9) (V c main_arg1) (iblk0 V c 0 t) (iblk0 V c 1 t) (iblk0 V c 2 t) t.val
    (fun y z h0 h1 => rows_block V c t y z h0 h1) (fun y z h0 => norm_block V c t y z h0) (fun y => untiled_block V c t y)
    j (((cfg0.win 3).blk t).view.emb j)
    (by show win0_3.index t (0 : Fin 2) * 4000 + 1 * (j 0).val = t.val * 4000 + (j 0).val; omega)
    (by show win0_3.index t (1 : Fin 2) * 64 + 1 * (j 1).val = (j 1).val; omega)

/-- An index of the result array is in point `t`'s block iff each coordinate is in the block's range on its axis. -/
theorem mem_block (t : Fin cfg0.N) (i : S100000x64.Idx) :
    i ∈ ((cfg0.win 3).blk t).view.set ↔ ∀ a : Fin 2, win0_3.index t a * S4000x64.size a ≤ (i a).val ∧ (i a).val < win0_3.index t a * S4000x64.size a + S4000x64.size a := by
  show i ∈ ((View.whole main_v13).slice (win0_3.rect t)).set ↔ _
  rw [View.set_slice_whole, Rect.mem_set_unit]
  exact Iff.rfl

/-- Row `r` of the result is written back by point `r / 4000`: the blocks cover the array. -/
theorem covered (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : grid0.N = 25 := N_0
  obtain ⟨t, ht⟩ : ∃ t : Fin cfg0.N, t.val = (i 0).val / 4000 := ⟨⟨(i 0).val / 4000, by show _ < grid0.N; omega⟩, rfl⟩
  obtain ⟨e00, e01, e10, e11, e20, e21, e30, e31⟩ := block_indices t
  refine ⟨t, flush0_3 t, ?_⟩
  rw [mem_block]
  intro a
  match a with
  | ⟨0, _⟩ => show win0_3.index t (0 : Fin 2) * 4000 ≤ (i 0).val ∧ (i 0).val < win0_3.index t (0 : Fin 2) * 4000 + 4000; omega
  | ⟨1, _⟩ => show win0_3.index t (1 : Fin 2) * 64 ≤ (i 1).val ∧ (i 1).val < win0_3.index t (1 : Fin 2) * 64 + 64; omega

/-- The result array after the region. -/
theorem final (c : Dev nD) :
    (dat0 V c).arrAt 3 cfg0.N = Whole.scaledProduct (V c main_arg0) (V c main_v9) (V c main_arg1) :=
  (dat0 V c).arrAt_eq_of_cover 3 _ (fun t _ => flushed_block V c t) covered

end Cert.KernelIdeal.Region0

end
-- ==== Proof.HostSide.lean ====
/-
  The host operations of @main around the two regions, as functions of the buffers they read.

  `degreeNorm idx` is the [100000, 1] column `rsqrt (max 1 (deg idx))`, where `deg idx` scatter-adds a one
  for every entry of `idx` into a zero vector: the out-degree norm at `src`, the in-degree norm at `dst`.
  `aggregate X src dst` gathers the rows of `X` named by `src` (a negative index first moved up by
  100000) and scatter-adds them into a zero [100000, 64] array at the rows named by `dst`.
  `pooledVector o` lays the [100000, 1] column `o` out as a vector.

  Each lemma below reads one buffer after one stretch of @main's host operations, from any contents
  `X` before the stretch: the stretch before region 0 leaves the two norms and keeps the arguments,
  the stretch between the regions leaves the aggregated array and keeps the in-degree norm and the
  bias, and the last operation reshapes region 1's result.
-/
import proofs.«114373_j90400471646753_1_alg».proof.Proof.Gen.KernelIdeal.Launch
import Idealize.ShloMosaic.Lib.StableHlo.Run

noncomputable section

namespace Cert.KernelIdeal.HostSide

open Cert.KernelIdeal Cert.KernelIdeal.Gen Idealize.ShloMosaic Idealize.ShloMosaic.TcCoe Idealize.SL.Sem Idealize.ShloMosaic.StableHlo

variable {F : FTy → Type} [FloatOps F]

/-- `rsqrt (max 1 (deg idx))` as a one-column array. -/
def degreeNorm (idx : (⟨S3200000, .i32⟩ : BufTy).Contents (Elt F)) : (⟨S100000x1, .f32⟩ : BufTy).Contents (Elt F) :=
  shapeCast S100000x1 (Host.rsqrt (maximumf (broadcastInDim S100000 ![] bcast_S_S100000 (id (constant S_ .f32 0x3F800000#32)))
    (Host.scatterAdd scatter_S100000_S3200000x1_S3200000_n_0_0_1 (broadcastInDim S100000 ![] bcast_S_S100000 (constant S_ .f32 0x00000000#32))
      (broadcastInDim S3200000x1 ![0] bcast_S3200000_S3200000x1_0 idx)
      (broadcastInDim S3200000 ![] bcast_S_S3200000 (constant S_ .f32 0x3F800000#32))))) shapeCasts_S100000_S100000x1

/-- Gather the rows of `X` named by `src`, scatter-add them at the rows named by `dst`. -/
def aggregate (X : (⟨S100000x64, .f32⟩ : BufTy).Contents (Elt F)) (src dst : (⟨S3200000, .i32⟩ : BufTy).Contents (Elt F)) :
    (⟨S100000x64, .f32⟩ : BufTy).Contents (Elt F) :=
  Host.scatterAdd scatter_S100000x64_S3200000x1_S3200000x64_1_0_0_1
    (broadcastInDim S100000x64 ![] bcast_S_S100000x64 (constant S_ .f32 0x00000000#32))
    (broadcastInDim S3200000x1 ![0] bcast_S3200000_S3200000x1_0 dst)
    (Host.gather gather_S100000x64_S3200000x1_S3200000x64_1_0_n_n_0_1_164 X
      (broadcastInDim S3200000x1 ![0] bcast_S3200000_S3200000x1_0
        (select (cmpi .slt src (broadcastInDim S3200000 ![] bcast_S_S3200000 (constantI S_ 32 0#32)))
          (addi src (broadcastInDim S3200000 ![] bcast_S_S3200000 (constantI S_ 32 100000#32))) src)))

/-- The [100000, 1] column as a vector. -/
def pooledVector (o : (⟨S100000x1, .f32⟩ : BufTy).Contents (Elt F)) : (⟨S100000, .f32⟩ : BufTy).Contents (Elt F) :=
  shapeCast S100000 o shapeCasts_S100000x1_S100000

/-- The contents after the five stretches before region 0, from contents `X`. -/
abbrev beforeRegion0 (X : Valuation τ sig (Elt F)) : Valuation τ sig (Elt F) :=
  StableHlo.after hostOps0_4 (StableHlo.after hostOps0_3 (StableHlo.after hostOps0_2 (StableHlo.after hostOps0_1 (StableHlo.after hostOps0 X))))

set_option maxRecDepth 8192 in
theorem outNorm_entry (X : Valuation τ sig (Elt F)) :
    beforeRegion0 X (Proc.devRef .tc main_v9) = degreeNorm (X (Proc.devRef .tc main_arg3)) := by
  after_results_simp <;> rfl
set_option maxRecDepth 8192 in
theorem inNorm_entry (X : Valuation τ sig (Elt F)) :
    beforeRegion0 X (Proc.devRef .tc main_v12) = degreeNorm (X (Proc.devRef .tc main_arg4)) := by
  after_results_simp <;> rfl
set_option maxRecDepth 8192 in
theorem features_entry (X : Valuation τ sig (Elt F)) : beforeRegion0 X (Proc.devRef .tc main_arg0) = X (Proc.devRef .tc main_arg0) := by
  after_results_simp <;> rfl
set_option maxRecDepth 8192 in
theorem weights_entry (X : Valuation τ sig (Elt F)) : beforeRegion0 X (Proc.devRef .tc main_arg1) = X (Proc.devRef .tc main_arg1) := by
  after_results_simp <;> rfl
set_option maxRecDepth 8192 in
theorem bias_entry (X : Valuation τ sig (Elt F)) : beforeRegion0 X (Proc.devRef .tc main_arg2) = X (Proc.devRef .tc main_arg2) := by
  after_results_simp <;> rfl
set_option maxRecDepth 8192 in
theorem src_entry (X : Valuation τ sig (Elt F)) : beforeRegion0 X (Proc.devRef .tc main_arg3) = X (Proc.devRef .tc main_arg3) := by
  after_results_simp <;> rfl
set_option maxRecDepth 8192 in
theorem dst_entry (X : Valuation τ sig (Elt F)) : beforeRegion0 X (Proc.devRef .tc main_arg4) = X (Proc.devRef .tc main_arg4) := by
  after_results_simp <;> rfl

set_option maxRecDepth 8192 in
/-- The stretch between the regions leaves the aggregated array. -/
theorem aggregate_between (X : Valuation τ sig (Elt F)) :
    StableHlo.after hostOps1 X (Proc.devRef .tc main_v23)
      = aggregate (X (Proc.devRef .tc main_v13)) (X (Proc.devRef .tc main_arg3)) (X (Proc.devRef .tc main_arg4)) := by
  after_results_simp <;> rfl
set_option maxRecDepth 8192 in
theorem inNorm_between (X : Valuation τ sig (Elt F)) :
    StableHlo.after hostOps1 X (Proc.devRef .tc main_v12) = X (Proc.devRef .tc main_v12) := by
  after_results_simp <;> rfl
set_option maxRecDepth 8192 in
theorem bias_between (X : Valuation τ sig (Elt F)) :
    StableHlo.after hostOps1 X (Proc.devRef .tc main_arg2) = X (Proc.devRef .tc main_arg2) := by
  after_results_simp <;> rfl

set_option maxRecDepth 8192 in
/-- The last operation lays region 1's column out as the result vector. -/
theorem vector_after (X : Valuation τ sig (Elt F)) :
    StableHlo.after hostOps2 X (Proc.devRef .tc main_v25) = pooledVector (X (Proc.devRef .tc main_v24)) := by
  after_results_simp <;> rfl

end Cert.KernelIdeal.HostSide

end
-- ==== Proof.KernelValue.lean ====
/-
  The idealized kernel's run with its result named as a function of the arguments.

  The result buffer ends at what the fold through @main's segments leaves there. Reading that fold
  backwards: the last operation lays out region 1's column; region 1's array is `pooledRows` of what
  it finds in the aggregated array, the in-degree norm and the bias; the stretch between the regions
  leaves `aggregate` of region 0's array, `src` and `dst` there; region 0's array is `scaledProduct`
  of the features, the out-degree norm and the weights; and the stretch before region 0 leaves the
  two norms as `degreeNorm` of `src` and of `dst`. No region and no host operation writes an
  argument, so every argument is read back at its launch contents.
-/
import proofs.«114373_j90400471646753_1_alg».proof.Proof.ResultRun
import proofs.«114373_j90400471646753_1_alg».proof.Proof.Region0
import proofs.«114373_j90400471646753_1_alg».proof.Proof.Region1
import proofs.«114373_j90400471646753_1_alg».proof.Proof.HostSide

noncomputable section

namespace Cert.KernelIdeal.Value

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-! ## What region 0 finds -/

theorem features_at_region0 (c : Dev nD) : W5 m ρ c (Proc.devRef .tc main_arg0) = m ((c : Thread nD τ).loc main_arg0) :=
  HostSide.features_entry (W0 m ρ c)
theorem weights_at_region0 (c : Dev nD) : W5 m ρ c (Proc.devRef .tc main_arg1) = m ((c : Thread nD τ).loc main_arg1) :=
  HostSide.weights_entry (W0 m ρ c)
theorem outNorm_at_region0 (c : Dev nD) :
    W5 m ρ c (Proc.devRef .tc main_v9) = HostSide.degreeNorm (m ((c : Thread nD τ).loc main_arg3)) :=
  HostSide.outNorm_entry (W0 m ρ c)

/-- Region 0's array when it is left. -/
theorem product_after_region0 (c : Dev nD) :
    W6 m ρ c (Proc.devRef .tc main_v13)
      = Whole.scaledProduct (m ((c : Thread nD τ).loc main_arg0)) (HostSide.degreeNorm (m ((c : Thread nD τ).loc main_arg3)))
          (m ((c : Thread nD τ).loc main_arg1)) := by
  refine ((W6_arr m ρ c 3).trans (Region0.final (V5 m ρ) c)).trans ?_
  show Whole.scaledProduct (W5 m ρ c (Proc.devRef .tc main_arg0)) (W5 m ρ c (Proc.devRef .tc main_v9)) (W5 m ρ c (Proc.devRef .tc main_arg1)) = _
  rw [features_at_region0, outNorm_at_region0, weights_at_region0]

/-! ## What region 1 finds -/

theorem src_after_region0 (c : Dev nD) : W6 m ρ c (Proc.devRef .tc main_arg3) = m ((c : Thread nD τ).loc main_arg3) :=
  (W6_of_ne m ρ c main_arg3 (by decide)).trans (HostSide.src_entry (W0 m ρ c))
theorem dst_after_region0 (c : Dev nD) : W6 m ρ c (Proc.devRef .tc main_arg4) = m ((c : Thread nD τ).loc main_arg4) :=
  (W6_of_ne m ρ c main_arg4 (by decide)).trans (HostSide.dst_entry (W0 m ρ c))
theorem bias_after_region0 (c : Dev nD) : W6 m ρ c (Proc.devRef .tc main_arg2) = m ((c : Thread nD τ).loc main_arg2) :=
  (W6_of_ne m ρ c main_arg2 (by decide)).trans (HostSide.bias_entry (W0 m ρ c))
theorem inNorm_after_region0 (c : Dev nD) :
    W6 m ρ c (Proc.devRef .tc main_v12) = HostSide.degreeNorm (m ((c : Thread nD τ).loc main_arg4)) :=
  (W6_of_ne m ρ c main_v12 (by decide)).trans (HostSide.inNorm_entry (W0 m ρ c))

theorem aggregated_at_region1 (c : Dev nD) :
    W7 m ρ c (Proc.devRef .tc main_v23)
      = HostSide.aggregate (Whole.scaledProduct (m ((c : Thread nD τ).loc main_arg0)) (HostSide.degreeNorm (m ((c : Thread nD τ).loc main_arg3)))
          (m ((c : Thread nD τ).loc main_arg1))) (m ((c : Thread nD τ).loc main_arg3)) (m ((c : Thread nD τ).loc main_arg4)) := by
  refine (HostSide.aggregate_between (W6 m ρ c)).trans ?_
  rw [product_after_region0, src_after_region0, dst_after_region0]
theorem inNorm_at_region1 (c : Dev nD) :
    W7 m ρ c (Proc.devRef .tc main_v12) = HostSide.degreeNorm (m ((c : Thread nD τ).loc main_arg4)) :=
  (HostSide.inNorm_between (W6 m ρ c)).trans (inNorm_after_region0 m ρ c)
theorem bias_at_region1 (c : Dev nD) : W7 m ρ c (Proc.devRef .tc main_arg2) = m ((c : Thread nD τ).loc main_arg2) :=
  (HostSide.bias_between (W6 m ρ c)).trans (bias_after_region0 m ρ c)

/-! ## The result -/

/-- The result buffer's last contents as a function of the arguments. -/
theorem result_contents (c : Dev nD) :
    W9 m ρ c (Proc.devRef .tc main_v25)
      = HostSide.pooledVector (Whole.pooledRows
          (HostSide.aggregate (Whole.scaledProduct (m ((c : Thread nD τ).loc main_arg0)) (HostSide.degreeNorm (m ((c : Thread nD τ).loc main_arg3)))
            (m ((c : Thread nD τ).loc main_arg1))) (m ((c : Thread nD τ).loc main_arg3)) (m ((c : Thread nD τ).loc main_arg4)))
          (HostSide.degreeNorm (m ((c : Thread nD τ).loc main_arg4))) (m ((c : Thread nD τ).loc main_arg2))) := by
  refine (HostSide.vector_after (W8 m ρ c)).trans (congrArg HostSide.pooledVector ?_)
  refine ((W8_arr m ρ c 3).trans (Region1.final (V7 m ρ) c)).trans ?_
  show Whole.pooledRows (W7 m ρ c (Proc.devRef .tc main_v23)) (W7 m ρ c (Proc.devRef .tc main_v12)) (W7 m ρ c (Proc.devRef .tc main_arg2)) = _
  rw [aggregated_at_region1, inNorm_at_region1, bias_at_region1]

/-- Every weakly fair execution of the idealized kernel terminates, nothing faulting, with the result at that
    function of the arguments and the arguments unchanged. -/
theorem run : θ_run defs (onTc (τ := τ) (main (F := Ideal))) ⟨m, fun _ => 0, ρ⟩ (fun r => ∀ c : Dev nD,
      r.2.mem ((c.tc : Thread nD τ).loc main_v25)
        = HostSide.pooledVector (Whole.pooledRows
            (HostSide.aggregate (Whole.scaledProduct (m ((c.tc : Thread nD τ).loc main_arg0)) (HostSide.degreeNorm (m ((c.tc : Thread nD τ).loc main_arg3)))
              (m ((c.tc : Thread nD τ).loc main_arg1))) (m ((c.tc : Thread nD τ).loc main_arg3)) (m ((c.tc : Thread nD τ).loc main_arg4)))
            (HostSide.degreeNorm (m ((c.tc : Thread nD τ).loc main_arg4))) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_contents m ρ c), (h c).2⟩) (run_result m ρ)

end Cert.KernelIdeal.Value

end
-- ==== Proof.Bridge.lean ====
/-
  The kernel's result, as a function of the five arguments, is the reference's.

  Both programs compute the two degree norms with the same host operations, so the norms are the
  same functions of `src` and `dst`. The reference multiplies the features by the out-degree norm
  broadcast along the rows and takes a dot product with the weights: entry (r, q) is
  `∑ k, (x r k * n r) * w k q`, which is the kernel's region 0 array term by term. Both programs then
  apply the same gather and scatter-add to that array, so the aggregated arrays are equal without
  opening either operation. Last, the reference scales the aggregated rows by the in-degree norm,
  adds the bias, sums the 64 features from the initial value zero and divides by 64; the kernel's
  region 1 does the same per row, and `0 + s = s`.
-/
import proofs.«114373_j90400471646753_1_alg».proof.Proof.Whole
import proofs.«114373_j90400471646753_1_alg».proof.Proof.HostSide
import proofs.«114373_j90400471646753_1_alg».proof.Proof.Gen.ReferenceIdeal.Read

noncomputable section

namespace Cert.KernelIdeal.Bridge

open Cert.KernelIdeal Cert.KernelIdeal.Gen Idealize.ShloMosaic Idealize.ShloMosaic.ValueIdx
open Cert.ReferenceIdeal.Read (val_main_v8 val_main_v10 val_main_v11 val_main_v12 val_main_v13 val_main_v14 val_main_v24 val_main_v25 val_main_v26
  val_main_v27 val_main_v28 val_main_v29 val_main_v30 val_main_v31 val_main_v32 val_main_v33 val_main_cst_6 val_main_cst_7
  val_main_v11_apply val_main_v12_apply val_main_v13_apply val_main_v14_apply val_main_v25_apply val_main_v26_apply val_main_v27_apply
  val_main_v28_apply val_main_v29_apply val_main_v30_apply val_main_v31_apply val_main_v32_apply val_main_v33_apply
  val_main_cst_6_apply val_main_cst_7_apply lidx_main_v14 ridx_main_v14 idx_main_v11 idx_main_v12 idx_main_v25 idx_main_v26
  idx_main_v28 idx_main_v29 idx_main_v31 idx_main_v32)

variable (x0 : FVec Ideal S100000x128 .f32) (x1 : FVec Ideal S128x64 .f32) (x2 : FVec Ideal S64 .f32)
  (x3 x4 : IVec S3200000 32)

/-- The kernel's degree norm, read at row `r`, is the reference's `rsqrt (max 1 (deg idx))` at `r`: at `src` … -/
theorem outNorm_row (r : Fin 100000) :
    HostSide.degreeNorm (F := Ideal) x3 (ix2 r (0 : Fin 1)) = val_main_v8 (F := Ideal) x3 (ix1 r) :=
  shapeCast_apply _ shapeCasts_S100000_S100000x1 (ix2 r (0 : Fin 1)) (ix1 r) (by
    rw [Shape.rowMajor_val_one, Shape.rowMajor_val_two]; show r.val = r.val * 1 + 0; omega)

/-- … and at `dst`. -/
theorem inNorm_row (r : Fin 100000) :
    HostSide.degreeNorm (F := Ideal) x4 (ix2 r (0 : Fin 1)) = val_main_v10 (F := Ideal) x4 (ix1 r) :=
  shapeCast_apply _ shapeCasts_S100000_S100000x1 (ix2 r (0 : Fin 1)) (ix1 r) (by
    rw [Shape.rowMajor_val_one, Shape.rowMajor_val_two]; show r.val = r.val * 1 + 0; omega)

/-- Region 0's array is the reference's dot product of the scaled features with the weights. -/
theorem scaledProduct_eq :
    Whole.scaledProduct x0 (HostSide.degreeNorm (F := Ideal) x3) x1 = val_main_v14 (F := Ideal) x0 x1 x3 := by
  funext i
  rw [val_main_v14_apply]
  unfold Whole.scaledProduct
  refine Finset.sum_congr rfl fun k _ => ?_
  rw [val_main_v13_apply, val_main_v12_apply, val_main_v11_apply, outNorm_row]
  have e0 : lidx_main_v14 i k = ix2 (⟨(i 0).val, (i 0).isLt⟩ : Fin 100000) k :=
    funext fun a => Fin.ext (by match a with | ⟨0, _⟩ => rfl | ⟨1, _⟩ => rfl)
  have e1 : ridx_main_v14 i k = ix2 k (⟨(i 1).val, (i 1).isLt⟩ : Fin 64) :=
    funext fun a => Fin.ext (by match a with | ⟨0, _⟩ => rfl | ⟨1, _⟩ => rfl)
  have e2 : idx_main_v11 (idx_main_v12 (lidx_main_v14 i k)) = ix1 (⟨(i 0).val, (i 0).isLt⟩ : Fin 100000) :=
    funext fun a => Fin.ext (by match a with | ⟨0, _⟩ => rfl)
  rw [e2, e0, e1]
  rfl

/-- The same gather and scatter-add applied to equal arrays: the aggregated arrays are equal. -/
theorem aggregate_eq :
    HostSide.aggregate (F := Ideal) (Whole.scaledProduct x0 (HostSide.degreeNorm (F := Ideal) x3) x1) x3 x4
      = val_main_v24 (F := Ideal) x0 x1 x3 x4 := by
  rw [scaledProduct_eq]
  rfl

/-- The kernel's result vector is the reference's. -/
theorem result_eq :
    HostSide.pooledVector (F := Ideal) (Whole.pooledRows
        (HostSide.aggregate (F := Ideal) (Whole.scaledProduct x0 (HostSide.degreeNorm (F := Ideal) x3) x1) x3 x4)
        (HostSide.degreeNorm (F := Ideal) x4) x2)
      = val_main_v33 (F := Ideal) x0 x1 x2 x3 x4 := by
  rw [aggregate_eq]
  funext i
  obtain ⟨r, rfl⟩ : ∃ r : Fin 100000, i = ix1 r := ⟨i 0, eq_ix1 i⟩
  have hcol : HostSide.pooledVector (F := Ideal) (Whole.pooledRows (val_main_v24 (F := Ideal) x0 x1 x3 x4) (HostSide.degreeNorm (F := Ideal) x4) x2) (ix1 r)
      = Whole.pooledRows (val_main_v24 (F := Ideal) x0 x1 x3 x4) (HostSide.degreeNorm (F := Ideal) x4) x2 (ix2 r (0 : Fin 1)) :=
    shapeCast_apply _ shapeCasts_S100000x1_S100000 (ix1 r) (ix2 r (0 : Fin 1)) (by
      rw [Shape.rowMajor_val_one, Shape.rowMajor_val_two]; show r.val * 1 + 0 = r.val; omega)
  rw [hcol, val_main_v33_apply, val_main_v31_apply, val_main_v32_apply, val_main_cst_6_apply, val_main_cst_7_apply]
  unfold Whole.pooledRows
  show Ideal.div _ (Ideal.ofBits .f32 0x42800000#32) = Ideal.div (Ideal.ofBits .f32 0x00000000#32 + _) (Ideal.ofBits .f32 0x42800000#32)
  rw [Ideal.ofBits_zero_f32, zero_add]
  refine congrArg (fun s => Ideal.div s (Ideal.ofBits .f32 0x42800000#32)) ?_
  refine Finset.sum_congr rfl fun k _ => ?_
  rw [val_main_v30_apply, val_main_v27_apply, val_main_v26_apply, val_main_v25_apply, val_main_v29_apply, val_main_v28_apply, inNorm_row]
  have e0 : idx_main_v31 (ix1 r) k = ix2 r k :=
    funext fun a => Fin.ext (by match a with | ⟨0, _⟩ => rfl | ⟨1, _⟩ => rfl)
  have e1 : idx_main_v25 (idx_main_v26 (idx_main_v31 (ix1 r) k)) = ix1 r :=
    funext fun a => Fin.ext (by match a with | ⟨0, _⟩ => rfl)
  have e2 : idx_main_v28 (idx_main_v29 (idx_main_v31 (ix1 r) k)) = ix1 k :=
    funext fun a => Fin.ext (by match a with | ⟨0, _⟩ => rfl)
  rw [e1, e2, e0]
  rfl

end Cert.KernelIdeal.Bridge

end
-- ==== Proof.lean ====
/-
  A graph convolution with mean pooling, as two row-tiled kernel regions around shared host
  operations, against the plain reference: the two idealized programs end with the same
  [100000] vector on the extended reals.

  Both programs compute, with the same host operations, the out-degree and in-degree norms
  `rsqrt (max 1 deg)` from `src` and `dst`. The kernel's first region scales each feature row by its
  out-degree norm and multiplies by the weights, 4000 rows at a time: the format changes inside it
  are the identity and a product accumulated into zero is the plain sum, so its [100000, 64] array
  is, entry by entry, the reference's dot product of the scaled features with the weights. Both
  programs then gather the rows named by `src` and scatter-add them at the rows named by `dst` with
  the same operations, so the aggregated arrays agree whatever the indices are. The kernel's second
  region scales each aggregated row by its in-degree norm, adds the bias, sums the 64 features and
  divides by 64, 4000 rows at a time; the reference does the same on the whole array, its sum
  starting from zero. Only the order of the terms of finite sums differs between the two sides, so
  the finiteness of the inputs is never used.

  The three frames: the kernel at both instances by its frame certificate, the reference by its run
  with the result dropped. The idealization rewrote no operation, so `preserves` has nothing to say.
-/
import proofs.«114373_j90400471646753_1_alg».proof.Defs
import proofs.«114373_j90400471646753_1_alg».proof.Proof.Gen.Kernel
import proofs.«114373_j90400471646753_1_alg».proof.Proof.Gen.Kernel.Frame
import proofs.«114373_j90400471646753_1_alg».proof.Proof.Gen.KernelIdeal
import proofs.«114373_j90400471646753_1_alg».proof.Proof.Gen.KernelIdeal.Frame
import proofs.«114373_j90400471646753_1_alg».proof.Proof.Gen.ReferenceIdeal
import proofs.«114373_j90400471646753_1_alg».proof.Proof.Gen.ReferenceIdeal.Run
import proofs.«114373_j90400471646753_1_alg».proof.Proof.Gen.ReferenceIdeal.Read
import proofs.«114373_j90400471646753_1_alg».proof.Proof.Gen.Pre_finite_inputs
import proofs.«114373_j90400471646753_1_alg».proof.Proof.KernelValue
import proofs.«114373_j90400471646753_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the five arguments both programs run, and the reference's result term is the
    kernel's function of the arguments. -/
theorem algebraic : Cert.algebraic_KernelIdeal_ReferenceIdeal := by
  intro m ρ m' ρ' _ hagree
  refine ⟨_, Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v33_eq _ _ _ _ _).trans (Cert.KernelIdeal.Bridge.result_eq _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
